-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x8192 : Shape := ⟨2, ![4, 8192]⟩
abbrev S4x1024x3 : Shape := ⟨3, ![4, 1024, 3]⟩
abbrev S4x3x512 : Shape := ⟨3, ![4, 3, 512]⟩
abbrev S4x1024 : Shape := ⟨2, ![4, 1024]⟩
abbrev S4x1024x1 : Shape := ⟨3, ![4, 1024, 1]⟩
abbrev S4x512 : Shape := ⟨2, ![4, 512]⟩
abbrev S4x1x512 : Shape := ⟨3, ![4, 1, 512]⟩
abbrev S4x1024x512 : Shape := ⟨3, ![4, 1024, 512]⟩
abbrev S_ : Shape := ⟨0, ![]⟩
abbrev S4 : Shape := ⟨1, ![4]⟩

abbrev nBuf : Space → Nat
  | .hbm => 9
  | .vmem => 6
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x8192, .f32⟩
  | .hbm, ⟨4, _⟩ => ⟨S_, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .local _ .vmem, ⟨0, _⟩ => ⟨S4x1024x3, .f32⟩
  | .local _ .vmem, ⟨1, _⟩ => ⟨S4x1024x3, .f32⟩
  | .local _ .vmem, ⟨2, _⟩ => ⟨S4x3x512, .f32⟩
  | .local _ .vmem, ⟨3, _⟩ => ⟨S4x3x512, .f32⟩
  | .local _ .vmem, ⟨4, _⟩ => ⟨S4x1024, .f32⟩
  | .local _ .vmem, ⟨5, _⟩ => ⟨S4x1024, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S4x8192x3_S4x3x8192_0_2_1 : S4x8192x3.Transposes [0, 2, 1] S4x3x8192
  inb_S4x1024x3_S4x1024x3_0_0_0 : ∀ a, (![0, 0, 0] : Fin 3 → Nat) a + S4x1024x3.size a ≤ S4x1024x3.size a
  h_S4x1024x3 : 0 < S4x1024x3.numel
  inb_S4x3x512_S4x3x512_0_0_0 : ∀ a, (![0, 0, 0] : Fin 3 → Nat) a + S4x3x512.size a ≤ S4x3x512.size a
  h_S4x3x512 : 0 < S4x3x512.numel
  shapeCasts_S4x3x512_S4x3x512 : S4x3x512.ShapeCasts S4x3x512
  reduces_S4x1024x3_S4x1024 : S4x1024x3.Reduces [2] S4x1024
  shapeCasts_S4x1024_S4x1024x1 : S4x1024.ShapeCasts S4x1024x1
  reduces_S4x3x512_S4x512 : S4x3x512.Reduces [1] S4x512
  shapeCasts_S4x512_S4x1x512 : S4x512.ShapeCasts S4x1x512
  bitsLt_bf16_f32 : FTy.bits .bf16 < FTy.bits .f32
  broadcasts_S4x1024x1_S4x1024x512 : S4x1024x1.Broadcasts S4x1024x512
  broadcasts_S4x1x512_S4x1024x512 : S4x1x512.Broadcasts S4x1024x512
  reduces_S4x1024x512_S4x1024 : S4x1024x512.Reduces [2] S4x1024
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  reducesTo_S4x8192_S4_d1 : S4x8192.ReducesTo [1] S4
  h_S_ : 0 < S_.numel
  bcast_S_S4 : S_.BroadcastsInDim S4 (![] : Fin 0 → Fin S4.rank)
  dot_S4x1024x3_S4x3x512_S4x1024x512_2_1_1_2_0_0_wf : DotDims.WF S4x1024x3 S4x3x512 S4x1024x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x3.size a ≤ S4x8192x3.size a
  hwx0_0 : ∀ i : grid0.Coords, EltTy.bits .f32 = 32 ∨ (Rect.block (s := S4x8192x3) S4x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x512.size a ≤ S4x3x8192.size a
  hwx0_1 : ∀ i : grid0.Coords, EltTy.bits .f32 = 32 ∨ (Rect.block (s := S4x3x8192) S4x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x8192.size a
  hwx0_2 : ∀ i : grid0.Coords, EltTy.bits .f32 = 32 ∨ (Rect.block (s := S4x8192) S4x1024.size (cc0_transform_2 i) (hinb0_2 i)).WholeWords (EltTy.packing .f32)

variable [Facts₀]

def dot_S4x1024x3_S4x3x512_S4x1024x512_2_1_1_2_0_0 : DotDims S4x1024x3 S4x3x512 S4x1024x512 where
  lhsContracting := [2]
  rhsContracting := [1]
  lhsNonContracting := [1]
  rhsNonContracting := [2]
  lhsBatch := [0]
  rhsBatch := [0]
  wf := dot_S4x1024x3_S4x3x512_S4x1024x512_2_1_1_2_0_0_wf

abbrev win0_0 : Pipeline.Window sig grid0 :=
  Pipeline.Window.ofSpec (Memref.whole main_arg0) S4x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4x8192x8192 : Shape := ⟨3, ![4, 8192, 8192]⟩
abbrev S4 : Shape := ⟨1, ![4]⟩

abbrev nBuf : Space → Nat
  | .hbm => 28
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x1x8192, .f32⟩
  | .hbm, ⟨10, _⟩ => ⟨S4x8192x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Nearest.lean ====
/-
  The mathematics both programs compute, stated once over the extended reals and free of either program's text.

  For two clouds `p`, `g` of 4 × 8192 points of 3-space, the CLAMPED SQUARED DISTANCE of point `n` of `p` to point
  `m` of `g` in batch `b` is
      sqDist p g b n m = max ((|p n|² + |g m|²) − 2 · ⟨p n, g m⟩) 0,
  the three sums over the coordinate axis. The NEAREST squared distance of point `n` is the minimum of `sqDist` over
  every `m`, started from +∞. A minimum over the first `k` points (`nearestUpTo`) is what a running minimum holds
  after it has seen `k` columns: it starts at +∞ (`nearestUpTo_zero`), taking in 512 more columns is one `min` with
  the minimum over those columns (`nearestUpTo_tile`), and after all 8192 it is the nearest distance
  (`nearestUpTo_all`). Every step is the universal property of a minimum — `c ≤ min` iff `c` is below every entry —,
  so nothing here asks whether an entry is finite.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.HalfChamfer

/-- 4 batches of 8192 points of 3-space, coordinates in the extended reals. -/
abbrev Cloud : Type := (⟨3, ![4, 8192, 3]⟩ : Shape).Idx → EReal

/-- +∞ as both programs spell it: the f32 word 0x7F800000 read at the ideal instance. Every minimum starts here. -/
abbrev pinf : EReal := Ideal.ofBits .f32 0x7F800000#32

/-- The clamped squared distance of point `n` of `p` to point `m` of `g`, batch `b`: the two squared norms added, twice
    the inner product taken off, the result raised to at least zero. The literals are the programs' own words (2.0 and
    +0.0), never evaluated. -/
def sqDist (p g : Cloud) (b : Fin 4) (n m : Fin 8192) : EReal :=
  max (((∑ k : Fin 3, p (ix3 b n k) * p (ix3 b n k)) + ∑ k : Fin 3, g (ix3 b m k) * g (ix3 b m k))
        - Ideal.ofBits .f32 0x40000000#32 * ∑ k : Fin 3, p (ix3 b n k) * g (ix3 b m k))
      (Ideal.ofBits .f32 0x00000000#32)

/-- The minimum of the clamped squared distances from point `n` to the FIRST `k` points of `g`, from +∞. -/
def nearestUpTo (p g : Cloud) (k : ℕ) (b : Fin 4) (n : Fin 8192) : EReal :=
  (Finset.univ.filter fun m : Fin 8192 => m.val < k).fold min pinf (sqDist p g b n)

/-- Its universal property: `c` is below it iff `c` is below +∞ and below every one of those `k` distances. -/
theorem le_nearestUpTo (p g : Cloud) (k : ℕ) (b : Fin 4) (n : Fin 8192) (c : EReal) :
    c ≤ nearestUpTo p g k b n ↔ c ≤ pinf ∧ ∀ m : Fin 8192, m.val < k → c ≤ sqDist p g b n m := by
  unfold nearestUpTo
  rw [Finset.le_fold_min]
  simp only [Finset.mem_filter, Finset.mem_univ, true_and]

/-- The nearest squared distance of every point of `p` to the cloud `g`: the minimum over all 8192 points of `g`. -/
def nearest (p g : Cloud) : (⟨2, ![4, 8192]⟩ : Shape).Idx → EReal :=
  fun i => (Finset.univ : Finset (Fin 8192)).fold min pinf (sqDist p g (i 0) (i 1))

/-- Before any column is seen the running minimum is +∞. -/
theorem nearestUpTo_zero (p g : Cloud) (b : Fin 4) (n : Fin 8192) : nearestUpTo p g 0 b n = pinf := by
  unfold nearestUpTo
  rw [Finset.filter_false_of_mem (fun m _ => Nat.not_lt_zero _), Finset.fold_empty]

/-- After all 8192 columns it is the nearest distance. -/
theorem nearestUpTo_all (p g : Cloud) (b : Fin 4) (n : Fin 8192) : nearestUpTo p g 8192 b n = nearest p g (ix2 b n) := by
  show (Finset.univ.filter fun m : Fin 8192 => m.val < 8192).fold min pinf (sqDist p g b n)
    = (Finset.univ : Finset (Fin 8192)).fold min pinf (sqDist p g b n)
  rw [Finset.filter_true_of_mem fun m _ => m.isLt]

/-- ONE TILE MORE. If `acc` is the minimum over the first `k` columns and `f` lists the distances to the next 512
    columns `k, k+1, …, k+511`, then `min acc (min of f from +∞)` is the minimum over the first `k + 512`: a column
    below `k + 512` is either below `k` or is `k + q` for its own `q < 512`. -/
theorem nearestUpTo_tile (p g : Cloud) (k : ℕ) (hk : k + 512 ≤ 8192) (b : Fin 4) (n : Fin 8192) (f : Fin 512 → EReal)
    (hf : ∀ q : Fin 512, f q = sqDist p g b n ⟨k + q.val, by have := q.isLt; omega⟩) (acc : EReal)
    (hacc : acc = nearestUpTo p g k b n) :
    min acc ((Finset.univ : Finset (Fin 512)).fold min pinf f) = nearestUpTo p g (k + 512) b n := by
  subst hacc
  refine eq_of_forall_le_iff fun c => ?_
  rw [le_min_iff, le_nearestUpTo, le_nearestUpTo, Finset.le_fold_min]
  constructor
  · rintro ⟨⟨h0, h1⟩, -, h2⟩
    refine ⟨h0, fun m hm => ?_⟩
    by_cases h : m.val < k
    · exact h1 m h
    · have hq := h2 ⟨m.val - k, by omega⟩ (Finset.mem_univ _)
      rw [hf] at hq
      have e : (⟨k + (m.val - k), by have := m.isLt; omega⟩ : Fin 8192) = m := Fin.ext (by show k + (m.val - k) = m.val; omega)
      rw [e] at hq
      exact hq
  · rintro ⟨h0, h1⟩
    exact ⟨⟨h0, fun m hm => h1 m (by omega)⟩, h0, fun q _ => by
      rw [hf]; exact h1 _ (by show k + q.val < k + 512; have := q.isLt; omega)⟩

/-- THE FIRST TILE: from +∞ itself. -/
theorem nearestUpTo_first (p g : Cloud) (b : Fin 4) (n : Fin 8192) (f : Fin 512 → EReal)
    (hf : ∀ q : Fin 512, f q = sqDist p g b n ⟨0 + q.val, by have := q.isLt; omega⟩) :
    min pinf ((Finset.univ : Finset (Fin 512)).fold min pinf f) = nearestUpTo p g (0 + 512) b n :=
  nearestUpTo_tile p g 0 (by omega) b n f hf pinf (nearestUpTo_zero p g b n).symm

end Cert.HalfChamfer

end
-- ==== Proof.RefSide.lean ====
/-
  The reference's minimum, read at an index.

  The reference builds the whole 4 × 8192 × 8192 table of clamped squared distances — the squared norms of the two
  clouds, each a sum over the coordinate axis from zero, broadcast against each other and added; twice the batched inner
  product taken off; the maximum with zero — and reduces it with `minimum` along its last axis from +∞. Entry
  (b, n, m) of the table is `sqDist p g b n m` (`table_apply`: each operation read at an index, the two `0 +` of the
  sums dropped), and a minimum-reduction along one axis is the fold of `min` over that axis's coordinates, so the reduced
  array is `nearest p g` (`reduced_eq`). The last lines sum it along the rows and divide by 8192 (`result_eq`).
-/
import proofs.«156312_j44813688767320_1_alg».proof.Proof.Gen.ReferenceIdeal.Run
import proofs.«156312_j44813688767320_1_alg».proof.Proof.Gen.ReferenceIdeal.Read
import proofs.«156312_j44813688767320_1_alg».proof.Proof.Nearest

noncomputable section

open scoped BigOperators
open Idealize.ShloMosaic Idealize.ShloMosaic.TcCoe Idealize.ShloMosaic.ValueIdx

namespace Cert.ReferenceIdeal.RefValue

open Cert.ReferenceIdeal Cert.ReferenceIdeal.Gen Cert.ReferenceIdeal.Read Cert.HalfChamfer

/-- The point of `p` a table entry (b, n, m) reads: (b, n, ·), reached through the two broadcasts and the sum. -/
theorem pIdx (b : Fin 4) (n m : Fin 8192) (k : Fin 3) :
    idx_main_v1 (idx_main_v2 (idx_main_v7 (ix3 b n m))) k = ix3 b n k :=
  funext fun a => Fin.ext (by match a with | ⟨0, _⟩ => rfl | ⟨1, _⟩ => rfl | ⟨2, _⟩ => rfl)

/-- The point of `g` it reads: (b, m, ·). -/
theorem gIdx (b : Fin 4) (n m : Fin 8192) (k : Fin 3) :
    idx_main_v4 (idx_main_v5 (idx_main_v8 (ix3 b n m))) k = ix3 b m k :=
  funext fun a => Fin.ext (by match a with | ⟨0, _⟩ => rfl | ⟨1, _⟩ => rfl | ⟨2, _⟩ => rfl)

/-- The inner product's left factor at (b, n, m), coordinate k: `p` at (b, n, k); -/
theorem lIdx (b : Fin 4) (n m : Fin 8192) (k : Fin 3) : lidx_main_v6 (ix3 b n m) k = ix3 b n k :=
  funext fun a => Fin.ext (by match a with | ⟨0, _⟩ => rfl | ⟨1, _⟩ => rfl | ⟨2, _⟩ => rfl)

/-- its right factor: `g` at (b, m, k). -/
theorem rIdx (b : Fin 4) (n m : Fin 8192) (k : Fin 3) : ridx_main_v6 (ix3 b n m) k = ix3 b m k :=
  funext fun a => Fin.ext (by match a with | ⟨0, _⟩ => rfl | ⟨1, _⟩ => rfl | ⟨2, _⟩ => rfl)

/-- Entry (b, n, m) of the reference's table of clamped squared distances is `sqDist p g b n m`. -/
theorem table_apply (p g : Cloud) (b : Fin 4) (n m : Fin 8192) :
    val_main_v14 (F := Ideal) p g (ix3 b n m) = sqDist p g b n m := by
  rw [val_main_v14_apply, val_main_v12_apply, val_main_v9_apply, val_main_v7_apply, val_main_v2_apply, val_main_v1_apply,
    val_main_v8_apply, val_main_v5_apply, val_main_v4_apply, val_main_v11_apply, val_main_v10_apply, val_main_v6_apply,
    val_main_v13_apply]
  unfold sqDist
  simp only [val_main_v0_apply, val_main_v3_apply, val_main_cst_apply, val_main_cst_0_apply, val_main_cst_1_apply,
    val_main_cst_2_apply, pIdx, gIdx, lIdx, rIdx, Ideal.ofBits_def, Ideal.addf_def, Ideal.subf_def, Ideal.mulf_def,
    Ideal.maximumf_def, Ideal.ofBits_zero_f32, zero_add]

/-- The reference's minimum-reduction of its table is the nearest squared distance of every point. -/
theorem reduced_eq (p g : Cloud) : val_main_v15 (F := Ideal) p g = nearest p g := by
  funext i
  unfold val_main_v15
  rw [Host.reduce_eq_fold_single FloatOps.minimumf _ _ reducesTo_S4x8192x8192_S4x8192_d2 (by decide) h_S_ i]
  show (Finset.univ : Finset (Fin 8192)).fold min pinf _ = (Finset.univ : Finset (Fin 8192)).fold min pinf (sqDist p g (i 0) (i 1))
  refine congrArg (fun f => (Finset.univ : Finset (Fin 8192)).fold min pinf f) (funext fun m => ?_)
  refine Eq.trans (congrArg (val_main_v14 (F := Ideal) p g) ?_) (table_apply p g (i 0) (i 1) m)
  exact funext fun a => Fin.ext (by match a with | ⟨0, _⟩ => rfl | ⟨1, _⟩ => rfl | ⟨2, _⟩ => rfl)

/-- The mean over the 8192 rows as the reference's last lines compute it: the sum along the rows from zero, divided by
    8192. -/
def meanRows (d : FVec Ideal S4x8192 .f32) : FVec Ideal S4 .f32 :=
  Host.divf (F := Ideal) (Host.reduceAdd (F := Ideal) d (constant (F := Ideal) S_ .f32 0x00000000#32) reducesTo_S4x8192_S4_d1 h_S_)
    (broadcastInDim S4 ![] bcast_S_S4 (constant (F := Ideal) S_ .f32 0x46000000#32))

/-- The reference's result is that mean of the nearest squared distances. -/
theorem result_eq (p g : Cloud) : val_main_v18 (F := Ideal) p g = meanRows (nearest p g) := by
  unfold val_main_v18 val_main_v16 val_main_v17 val_main_cst_4 val_main_cst_5 meanRows
  rw [reduced_eq]

end Cert.ReferenceIdeal.RefValue

end
-- ==== Proof.Tile.lean ====
/-
  One grid point of the kernel, read at an index.

  At a point the body holds a block `x0` of 1024 points of the first cloud (4 × 1024 × 3) and a block `x1` of 512 points
  of the second, TRANSPOSED (4 × 3 × 512: coordinate axis in the middle). It forms, for every row r and column q of
  the tile, the clamped squared distance
      tileDist x0 x1 b r q = max ((Σ_k x0[b,r,k]² + Σ_k x1[b,k,q]²) − 2 · Σ_k x0[b,r,k] · x1[b,k,q]) 0
  — the first norm a sum along the last axis kept as a column and broadcast along the lanes, the second a sum along the
  middle axis kept as a row and broadcast down the rows, the inner product a batched matrix product into a zero
  accumulator whose operands were narrowed to bf16, which over the extended reals is the identity — and then takes the
  minimum along the lanes from +∞ and the minimum of that with what the output block held (`update_apply`).
-/
import proofs.«156312_j44813688767320_1_alg».proof.Proof.Gen.KernelIdeal.Skeleton
import proofs.«156312_j44813688767320_1_alg».proof.Proof.Nearest
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.ShloMosaic.ValueIdx

namespace Cert.KernelIdeal.Tile

open Cert.KernelIdeal Cert.KernelIdeal.Gen Cert.HalfChamfer

/-! ## The reductions -/

/-- A sum along the last axis of a 4 × 1024 × 3 block, at (b, r): the three entries of row (b, r). -/
theorem rowSum (src : FVec Ideal S4x1024x3 .f32) (hφ : FKind.Formats .f32)
    (hacc : (0x00000000#32 : BitVec 32) = FKind.add.neutral .f32 hφ) (b : Fin 4) (r : Fin 1024) :
    multiReduction (F := Ideal) .add [2] S4x1024 src 0x00000000#32 reduces_S4x1024x3_S4x1024 hφ hacc (ix2 b r)
      = ∑ k : Fin 3, src (ix3 b r k) :=
  (Ideal.multiReduction_add_single src 0x00000000#32 reduces_S4x1024x3_S4x1024 hφ hacc (ix2 b r)).trans
    (Finset.sum_congr rfl fun k _ => congrArg src (funext fun a => Fin.ext (by
      match a with | ⟨0, _⟩ => rfl | ⟨1, _⟩ => rfl | ⟨2, _⟩ => rfl)))

/-- A sum along the MIDDLE axis of a 4 × 3 × 512 block, at (b, q): the three entries of column (b, ·, q). -/
theorem colSum (src : FVec Ideal S4x3x512 .f32) (hφ : FKind.Formats .f32)
    (hacc : (0x00000000#32 : BitVec 32) = FKind.add.neutral .f32 hφ) (b : Fin 4) (q : Fin 512) :
    multiReduction (F := Ideal) .add [1] S4x512 src 0x00000000#32 reduces_S4x3x512_S4x512 hφ hacc (ix2 b q)
      = ∑ k : Fin 3, src (ix3 b k q) :=
  (Ideal.multiReduction_add_single src 0x00000000#32 reduces_S4x3x512_S4x512 hφ hacc (ix2 b q)).trans
    (Finset.sum_congr rfl fun k _ => congrArg src (funext fun a => Fin.ext (by
      match a with | ⟨0, _⟩ => rfl | ⟨1, _⟩ => rfl | ⟨2, _⟩ => rfl)))

/-- A minimum along the lanes of a 4 × 1024 × 512 tile from +∞, at (b, r): the fold of `min` over the 512 lanes. -/
theorem laneMin (src : FVec Ideal S4x1024x512 .f32) (hφ : FKind.Formats .f32)
    (hacc : (0x7F800000#32 : BitVec 32) = FKind.minimumf.neutral .f32 hφ) (b : Fin 4) (r : Fin 1024) :
    multiReduction (F := Ideal) .minimumf [2] S4x1024 src 0x7F800000#32 reduces_S4x1024x512_S4x1024 hφ hacc (ix2 b r)
      = (Finset.univ : Finset (Fin 512)).fold min pinf (fun q => src (ix3 b r q)) := by
  refine (multiReduction_minimumf_eq_fold src 0x7F800000#32 reduces_S4x1024x512_S4x1024 hφ hacc (ix2 b r)).trans ?_
  refine (reduces_S4x1024x512_S4x1024.fold_filter_drop_single FloatOps.minimumf _ src (ix2 b r)).trans ?_
  show (Finset.univ : Finset (Fin 512)).fold min pinf _ = _
  exact congrArg (fun f => (Finset.univ : Finset (Fin 512)).fold min pinf f) (funext fun q => congrArg src (funext fun a =>
    Fin.ext (by match a with | ⟨0, _⟩ => rfl | ⟨1, _⟩ => rfl | ⟨2, _⟩ => rfl)))

/-! ## The two kept-axis broadcasts -/

/-- A 4 × 1024 array kept as a column (a trailing unit axis) and broadcast along 512 lanes reads, at (b, r, q), its
    entry (b, r). -/
theorem alongLanes (v : FVec Ideal S4x1024 .f32) (b : Fin 4) (r : Fin 1024) (q : Fin 512) :
    broadcastTo S4x1024x512 (shapeCast S4x1024x1 v shapeCasts_S4x1024_S4x1024x1) broadcasts_S4x1024x1_S4x1024x512 (ix3 b r q)
      = v (ix2 b r) := by
  refine (broadcastTo_apply _ broadcasts_S4x1024x1_S4x1024x512 (ix3 b r q) (ix3 b r (0 : Fin 1)) (fun a => ?_)).trans ?_
  · match a with
    | ⟨0, _⟩ => show b.val = if (4 : Nat) = 1 then 0 else b.val; rw [if_neg (by decide)]
    | ⟨1, _⟩ => show r.val = if (1024 : Nat) = 1 then 0 else r.val; rw [if_neg (by decide)]
    | ⟨2, _⟩ => show 0 = if (1 : Nat) = 1 then 0 else q.val; rw [if_pos rfl]
  · refine shapeCast_apply v shapeCasts_S4x1024_S4x1024x1 (ix3 b r (0 : Fin 1)) (ix2 b r) ?_
    rw [Shape.rowMajor_val_two, Shape.rowMajor_val_three]
    show b.val * 1024 + r.val = (b.val * 1024 + r.val) * 1 + 0
    omega

/-- A 4 × 512 array kept as a row (a unit axis in the middle) and broadcast down 1024 rows reads, at (b, r, q), its
    entry (b, q). -/
theorem downRows (v : FVec Ideal S4x512 .f32) (b : Fin 4) (r : Fin 1024) (q : Fin 512) :
    broadcastTo S4x1024x512 (shapeCast S4x1x512 v shapeCasts_S4x512_S4x1x512) broadcasts_S4x1x512_S4x1024x512 (ix3 b r q)
      = v (ix2 b q) := by
  refine (broadcastTo_apply _ broadcasts_S4x1x512_S4x1024x512 (ix3 b r q) (ix3 b (0 : Fin 1) q) (fun a => ?_)).trans ?_
  · match a with
    | ⟨0, _⟩ => show b.val = if (4 : Nat) = 1 then 0 else b.val; rw [if_neg (by decide)]
    | ⟨1, _⟩ => show 0 = if (1 : Nat) = 1 then 0 else r.val; rw [if_pos rfl]
    | ⟨2, _⟩ => show q.val = if (512 : Nat) = 1 then 0 else q.val; rw [if_neg (by decide)]
  · refine shapeCast_apply v shapeCasts_S4x512_S4x1x512 (ix3 b (0 : Fin 1) q) (ix2 b q) ?_
    rw [Shape.rowMajor_val_two, Shape.rowMajor_val_three]
    show b.val * 512 + q.val = (b.val * 1 + 0) * 512 + q.val
    omega

/-! ## The batched inner product -/

theorem lhsAx0 (i : S4x1024x512.Idx) (k : dot_S4x1024x3_S4x3x512_S4x1024x512_2_1_1_2_0_0.contr.Idx) :
    (dot_S4x1024x3_S4x3x512_S4x1024x512_2_1_1_2_0_0.lhsIdx i k 0).val = (i 0).val := by
  unfold DotDims.lhsIdx
  rw [dif_pos (show (0 : Fin S4x1024x3.rank) ∈ dot_S4x1024x3_S4x3x512_S4x1024x512_2_1_1_2_0_0.lhsBatch by decide)]
  rfl
theorem lhsAx1 (i : S4x1024x512.Idx) (k : dot_S4x1024x3_S4x3x512_S4x1024x512_2_1_1_2_0_0.contr.Idx) :
    (dot_S4x1024x3_S4x3x512_S4x1024x512_2_1_1_2_0_0.lhsIdx i k 1).val = (i 1).val := by
  unfold DotDims.lhsIdx
  rw [dif_neg (show ¬(1 : Fin S4x1024x3.rank) ∈ dot_S4x1024x3_S4x3x512_S4x1024x512_2_1_1_2_0_0.lhsBatch by decide), dif_pos (show (1 : Fin S4x1024x3.rank) ∈ dot_S4x1024x3_S4x3x512_S4x1024x512_2_1_1_2_0_0.lhsNonContracting by decide)]
  rfl
theorem lhsAx2 (i : S4x1024x512.Idx) (k : dot_S4x1024x3_S4x3x512_S4x1024x512_2_1_1_2_0_0.contr.Idx) :
    (dot_S4x1024x3_S4x3x512_S4x1024x512_2_1_1_2_0_0.lhsIdx i k 2).val = (k ⟨0, by decide⟩).val :=
  dot_S4x1024x3_S4x3x512_S4x1024x512_2_1_1_2_0_0.lhsIdx_val_of_single rfl i k
theorem rhsAx0 (i : S4x1024x512.Idx) (k : dot_S4x1024x3_S4x3x512_S4x1024x512_2_1_1_2_0_0.contr.Idx) :
    (dot_S4x1024x3_S4x3x512_S4x1024x512_2_1_1_2_0_0.rhsIdx i k 0).val = (i 0).val := by
  unfold DotDims.rhsIdx
  rw [dif_pos (show (0 : Fin S4x3x512.rank) ∈ dot_S4x1024x3_S4x3x512_S4x1024x512_2_1_1_2_0_0.rhsBatch by decide)]
  rfl
theorem rhsAx1 (i : S4x1024x512.Idx) (k : dot_S4x1024x3_S4x3x512_S4x1024x512_2_1_1_2_0_0.contr.Idx) :
    (dot_S4x1024x3_S4x3x512_S4x1024x512_2_1_1_2_0_0.rhsIdx i k 1).val = (k ⟨0, by decide⟩).val :=
  dot_S4x1024x3_S4x3x512_S4x1024x512_2_1_1_2_0_0.rhsIdx_val_of_single rfl i k
theorem rhsAx2 (i : S4x1024x512.Idx) (k : dot_S4x1024x3_S4x3x512_S4x1024x512_2_1_1_2_0_0.contr.Idx) :
    (dot_S4x1024x3_S4x3x512_S4x1024x512_2_1_1_2_0_0.rhsIdx i k 2).val = (i 2).val := by
  unfold DotDims.rhsIdx
  rw [dif_neg (show ¬(2 : Fin S4x3x512.rank) ∈ dot_S4x1024x3_S4x3x512_S4x1024x512_2_1_1_2_0_0.rhsBatch by decide), dif_pos (show (2 : Fin S4x3x512.rank) ∈ dot_S4x1024x3_S4x3x512_S4x1024x512_2_1_1_2_0_0.rhsNonContracting by decide)]
  rfl

/-- The batched matrix product of the two blocks (narrowed to bf16: the identity over the extended reals) into the zero
    accumulator reads, at (b, r, q), the inner product of row (b, r) of `x0` with column (b, ·, q) of `x1`. -/
theorem inner (x0 : FVec Ideal S4x1024x3 .f32) (x1 : FVec Ideal S4x3x512 .f32) (b : Fin 4) (r : Fin 1024) (q : Fin 512) :
    matmul (F := Ideal) dot_S4x1024x3_S4x3x512_S4x1024x512_2_1_1_2_0_0 none (truncf .bf16 x0 bitsLt_bf16_f32) (truncf .bf16 x1 bitsLt_bf16_f32)
        (constant S4x1024x512 .f32 0x00000000#32) (ix3 b r q)
      = ∑ k : Fin 3, x0 (ix3 b r k) * x1 (ix3 b k q) := by
  simp only [matmul]
  rw [Ideal.matmul_constant_zero_apply, ← Equiv.sum_comp (ValueIdx.contrEquiv1 dot_S4x1024x3_S4x3x512_S4x1024x512_2_1_1_2_0_0 3 rfl rfl).symm]
  refine Finset.sum_congr rfl fun k _ => ?_
  have hk := ValueIdx.contrEquiv1_symm_val dot_S4x1024x3_S4x3x512_S4x1024x512_2_1_1_2_0_0 3 rfl rfl k
  have el : dot_S4x1024x3_S4x3x512_S4x1024x512_2_1_1_2_0_0.lhsIdx (ix3 b r q) ((ValueIdx.contrEquiv1 dot_S4x1024x3_S4x3x512_S4x1024x512_2_1_1_2_0_0 3 rfl rfl).symm k) = ix3 b r k := funext fun a => Fin.ext (by
    match a with
    | ⟨0, _⟩ => exact lhsAx0 _ _
    | ⟨1, _⟩ => exact lhsAx1 _ _
    | ⟨2, _⟩ => exact (lhsAx2 _ _).trans hk)
  have er : dot_S4x1024x3_S4x3x512_S4x1024x512_2_1_1_2_0_0.rhsIdx (ix3 b r q) ((ValueIdx.contrEquiv1 dot_S4x1024x3_S4x3x512_S4x1024x512_2_1_1_2_0_0 3 rfl rfl).symm k) = ix3 b k q := funext fun a => Fin.ext (by
    match a with
    | ⟨0, _⟩ => exact rhsAx0 _ _
    | ⟨1, _⟩ => exact (rhsAx1 _ _).trans hk
    | ⟨2, _⟩ => exact rhsAx2 _ _)
  rw [el, er]
  rfl

/-! ## The tile -/

/-- The clamped squared distance of row r of the block `x0` to column q of the transposed block `x1`, batch b. -/
def tileDist (x0 : FVec Ideal S4x1024x3 .f32) (x1 : FVec Ideal S4x3x512 .f32) (b : Fin 4) (r : Fin 1024) (q : Fin 512) : EReal :=
  max (((∑ k : Fin 3, x0 (ix3 b r k) * x0 (ix3 b r k)) + ∑ k : Fin 3, x1 (ix3 b k q) * x1 (ix3 b k q))
        - Ideal.ofBits .f32 0x40000000#32 * ∑ k : Fin 3, x0 (ix3 b r k) * x1 (ix3 b k q))
      (Ideal.ofBits .f32 0x00000000#32)

/-- WHAT A POINT STORES. With the output block holding `acc`, the body's last store writes, at (b, r), the minimum of
    `acc` there with the minimum over the tile's 512 columns, from +∞, of the clamped squared distances. -/
theorem update_apply (x0 : Vec Ideal S4x1024x3 .f32) (x1 : Vec Ideal S4x3x512 .f32) (acc : Vec Ideal S4x1024 .f32)
    (b : Fin 4) (r : Fin 1024) :
    k0_pay2 (F := Ideal) x0 x1 acc (ix2 b r)
      = min (acc (ix2 b r)) ((Finset.univ : Finset (Fin 512)).fold min pinf (tileDist x0 x1 b r)) := by
  unfold k0_pay2
  dsimp only
  refine (minimumf_apply _ _ _).trans ?_
  refine congrArg₂ min ?_ ?_
  · rw [shapeCast_self]
  · refine (laneMin _ _ _ b r).trans ?_
    refine congrArg (fun f => (Finset.univ : Finset (Fin 512)).fold min pinf f) (funext fun q => ?_)
    simp only [maximumf_apply, subf_apply, addf_apply, mulf_apply, broadcast_apply, alongLanes, downRows, inner, shapeCast_self]
    unfold tileDist
    refine congrArg₂ max (congrArg₂ (· - ·) (congrArg₂ (· + ·) ?_ ?_) rfl) rfl
    · exact rowSum _ _ _ b r
    · exact colSum _ _ _ b q

/-- The reset block: +∞ everywhere. -/
theorem reset_apply (i : S4x1024.Idx) : (k0_pay1 (F := Ideal)) i = pinf := rfl

end Cert.KernelIdeal.Tile

end
-- ==== Proof.Running.lean ====
/-
  The kernel's run, read as values.

  The grid has 8 × 16 points; point t = 16·n + j works on rows 1024·n … 1024·n + 1023 of the first cloud and columns
  512·j … 512·j + 511 of the second (read through its transpose, which the host forms before the launch). The output
  block of row tile n stays in its staging buffer across the 16 points of that tile and is written back after the last.

    * At the first point of a row tile (j = 0) the body stores +∞ over the block, reads it back and stores the update over
      it; at every other point it stores the update over what the point before left (`first_point`, `later_point`: the
      two cases' stores read back as one value).
    * So after point t the block holds, at (b, r), the minimum over the first 512·(j + 1) columns of the clamped squared
      distances from row 1024·n + r (`running`, by induction on the point, one `nearestUpTo_tile` per step).
    * A point that writes back has j = 15: its block is the nearest squared distance of its 1024 rows (`written_back`);
      those eight blocks tile the 4 × 8192 result (`covered`), so the result array ends at `nearest` (`final`).
    * The host lines after the launch sum that array along its rows from zero and divide by 8192 (`result_eq`).
-/
import proofs.«156312_j44813688767320_1_alg».proof.Proof.Gen.KernelIdeal.Frame
import proofs.«156312_j44813688767320_1_alg».proof.Proof.Tile
import proofs.«156312_j44813688767320_1_alg».proof.Proof.Nearest
import Idealize.ShloMosaic.Lib.Pipeline.Value
import Idealize.ShloMosaic.Lib.ValueLayout
import Idealize.ShloMosaic.Lib.StableHlo.Run
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.RunValue

open Cert.KernelIdeal Cert.KernelIdeal.Gen Cert.KernelIdeal.Tile Cert.HalfChamfer

/-! ## What each case's stores leave in the output block -/

section Stores

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a point that is not the first of its row tile the one store covers the block: the update of what the block held. -/
theorem later_point (c : Dev nD) (i : grid0.Coords) (a2 : Memref sig .tc .vmem S4x1024x3 .f32) (h2 : a2.IsWhole)
    (a3 : Memref sig .tc .vmem S4x3x512 .f32) (h3 : a3.IsWhole) (a4 : Memref sig .tc .vmem S4x1024 .f32) (h4 : a4.IsWhole)
    (hc : ¬cond0_0 i) (x0 : Vec F S4x1024x3 .f32) (x1 : Vec F S4x3x512 .f32) (xo : Vec F S4x1024 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz2]
  simp only [View.readAt_eq_ld, h2.read_unread, h3.read_unread, h4.read_unread, View.ld_unit_zero (S := S4x1024x3) hz3,
    View.ld_unit_zero (S := S4x3x512) hz3, View.ld_unit_zero (S := S4x1024) hz2]

/-- At the first point of a row tile the reset is stored, read back, and the update stored over it: the update of +∞. -/
theorem first_point (c : Dev nD) (i : grid0.Coords) (a2 : Memref sig .tc .vmem S4x1024x3 .f32) (h2 : a2.IsWhole)
    (a3 : Memref sig .tc .vmem S4x3x512 .f32) (h3 : a3.IsWhole) (a4 : Memref sig .tc .vmem S4x1024 .f32) (h4 : a4.IsWhole)
    (hc : cond0_0 i) (x0 : Vec F S4x1024x3 .f32) (x1 : Vec F S4x3x512 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S4x1024) hz2, View.readCov_unit_zero (S := S4x1024) _ hz2]
  simp only [View.readAt_eq_ld, h2.read_unread, h3.read_unread, View.ld_unit_zero (S := S4x1024x3) hz3,
    View.ld_unit_zero (S := S4x3x512) hz3, View.ld_unit_zero (S := S4x1024) hz2]

end Stores

/-! ## The blocks a point reads -/

variable (m : (ℓ : Loc nD τ sig) → Buf (Elt Ideal) ℓ) (ρ : Dev nD → PrngReg)

/-- The first cloud, as launched. -/
abbrev P (c : Dev nD) : Cloud := m ((c : Thread nD τ).loc main_arg0)
/-- The second cloud, as launched. -/
abbrev G (c : Dev nD) : Cloud := m ((c : Thread nD τ).loc main_arg1)

/-- Row r of point t's row tile, as a row of the cloud. -/
abbrev rowAt (n : ℕ) (hn : n < 128) (r : Fin 1024) : Fin 8192 := ⟨n / 16 * 1024 + r.val, by have := r.isLt; omega⟩
/-- Column q of point t's column tile, as a point of the second cloud. -/
abbrev colAt (n : ℕ) (hn : n < 128) (q : Fin 512) : Fin 8192 := ⟨n % 16 * 512 + q.val, by have := q.isLt; omega⟩

theorem lt128 {n : ℕ} (hn : n < cfg0.N) : n < 128 := lt_of_lt_of_eq hn (show cfg0.N = 128 from N_0)

/-- The printed index maps, decided over the grid: the first window moves with the row tile, the second with the column
    tile, the output with the row tile. -/
theorem idx_facts : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = 0 ∧ win0_1.index t (2 : Fin 3) = t.val % 16
    ∧ win0_2.index t (0 : Fin 2) = 0 ∧ win0_2.index t (1 : Fin 2) = t.val / 16 :=
  (by decide +kernel : ∀ t : Fin grid0.N, _)

/-- The second window's array is the transpose the host forms before the launch. -/
theorem transposed (c : Dev nD) :
    (V m c main_v0 : S4x3x8192.Idx → EReal) = transpose S4x3x8192 [0, 2, 1] (G m c) transposes_S4x8192x3_S4x3x8192_0_2_1 := by
  show StableHlo.after hostOps0 (fun b => m (c, b)) (Proc.devRef .tc main_v0) = _
  after_results

/-- The first window's block at point t is rows 1024·(t / 16) … of the first cloud. -/
theorem pblock (c : Dev nD) (t : Fin cfg0.N) (b : Fin 4) (r : Fin 1024) (k : Fin 3) :
    (iblk m c 0 t : Vec Ideal S4x1024x3 .f32) (ix3 b r k) = P m c (ix3 b (rowAt t.val (lt128 t.isLt) r) k) := by
  obtain ⟨e0, e1, e2, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 4 + 1 * b.val = b.val; rw [e0]; omega
  | ⟨1, _⟩ => show win0_0.index t (1 : Fin 3) * 1024 + 1 * r.val = t.val / 16 * 1024 + r.val; rw [e1]; omega
  | ⟨2, _⟩ => show win0_0.index t (2 : Fin 3) * 3 + 1 * k.val = k.val; rw [e2]; omega

/-- The second window's block at point t is points 512·(t % 16) … of the second cloud, coordinate axis in the middle. -/
theorem gblock (c : Dev nD) (t : Fin cfg0.N) (b : Fin 4) (k : Fin 3) (q : Fin 512) :
    (iblk m c 1 t : Vec Ideal S4x3x512 .f32) (ix3 b k q) = G m c (ix3 b (colAt t.val (lt128 t.isLt) q) k) := by
  obtain ⟨-, -, -, e0, e1, e2, -⟩ := idx_facts t
  refine Eq.trans ?_ (transpose_ix3_021_apply (G m c) transposes_S4x8192x3_S4x3x8192_0_2_1 b k (colAt t.val (lt128 t.isLt) q))
  refine Eq.trans ?_ (congrFun (transposed m c) (ix3 b k (colAt t.val (lt128 t.isLt) q)))
  unfold iblk
  rw [View.read_apply]
  show V m c main_v0 _ = V m c main_v0 _
  congr 1
  funext a
  apply Fin.ext
  match a with
  | ⟨0, _⟩ => show win0_1.index t (0 : Fin 3) * 4 + 1 * b.val = b.val; rw [e0]; omega
  | ⟨1, _⟩ => show win0_1.index t (1 : Fin 3) * 3 + 1 * k.val = k.val; rw [e1]; omega
  | ⟨2, _⟩ => show win0_1.index t (2 : Fin 3) * 512 + 1 * q.val = t.val % 16 * 512 + q.val; rw [e2]; omega

/-- So the tile's distances at point t are the clouds' distances from row (t / 16, r) to column (t % 16, q). -/
theorem tile_eq (c : Dev nD) (t : Fin cfg0.N) (b : Fin 4) (r : Fin 1024) (q : Fin 512) :
    tileDist (iblk m c 0 t : Vec Ideal S4x1024x3 .f32) (iblk m c 1 t : Vec Ideal S4x3x512 .f32) b r q
      = sqDist (P m c) (G m c) b (rowAt t.val (lt128 t.isLt) r) (colAt t.val (lt128 t.isLt) q) := by
  unfold tileDist sqDist
  simp only [pblock, gblock]

/-! ## The running minimum -/

/-- What a point leaves at (b, r), given what the block held there: one tile more. -/
theorem step (c : Dev nD) (t : Fin cfg0.N) (acc : Vec Ideal S4x1024 .f32) (b : Fin 4) (r : Fin 1024)
    (hacc : acc (ix2 b r) = nearestUpTo (P m c) (G m c) (t.val % 16 * 512) b (rowAt t.val (lt128 t.isLt) r)) :
    k0_pay2 (F := Ideal) (iblk m c 0 t) (iblk m c 1 t) acc (ix2 b r)
      = nearestUpTo (P m c) (G m c) (t.val % 16 * 512 + 512) b (rowAt t.val (lt128 t.isLt) r) := by
  have ht := lt128 t.isLt
  refine (update_apply _ _ acc b r).trans ?_
  exact nearestUpTo_tile (P m c) (G m c) (t.val % 16 * 512) (by omega) b (rowAt t.val ht r) _
    (fun q => tile_eq m c t b r q) _ hacc

/-- AFTER POINT n the output block holds, at (b, r), the minimum over the first 512·(n % 16 + 1) columns of the clamped
    squared distances from row 1024·(n / 16) + r: by induction on the point. -/
theorem running (c : Dev nD) : ∀ (n : ℕ) (hn : n < cfg0.N) (b : Fin 4) (r : Fin 1024),
    outsAt0 m c n hn (ix2 b r) = nearestUpTo (P m c) (G m c) (n % 16 * 512 + 512) b (rowAt n (lt128 hn) r)
  | 0, hn, b, r => by
    rw [show outsAt0 m c 0 hn = _ from outsAt0_A m c ⟨0, hn⟩ rfl, first_point]
    refine step m c ⟨0, hn⟩ (k0_pay1 (F := Ideal)) b r ?_
    exact (nearestUpTo_zero _ _ _ _).symm
  | n + 1, hn, b, r => by
    have h128 := lt128 hn
    by_cases h0 : (n + 1) % 16 = 0
    · rw [show outsAt0 m c (n + 1) hn = _ from outsAt0_A m c ⟨n + 1, hn⟩ h0, first_point]
      refine step m c ⟨n + 1, hn⟩ (k0_pay1 (F := Ideal)) b r ?_
      show pinf = nearestUpTo (P m c) (G m c) ((n + 1) % 16 * 512) b _
      rw [h0, Nat.zero_mul]
      exact (nearestUpTo_zero _ _ _ _).symm
    · rw [show outsAt0 m c (n + 1) hn = _ from outsAt0_B m c ⟨n + 1, hn⟩ h0, later_point]
      refine step m c ⟨n + 1, hn⟩ _ b r ?_
      show outsAt0 m c n _ (ix2 b r) = _
      rw [running c n (Nat.lt_of_succ_lt hn) b r]
      have e1 : n % 16 * 512 + 512 = (n + 1) % 16 * 512 := by omega
      have e2 : rowAt n (lt128 (Nat.lt_of_succ_lt hn)) r = rowAt (n + 1) h128 r := Fin.ext (by
        show n / 16 * 1024 + r.val = (n + 1) / 16 * 1024 + r.val; omega)
      rw [e1, e2]

/-! ## What is written back, and where -/

/-- A point that writes back is the last of its row tile: its block is the nearest squared distance of its rows. -/
theorem last_point (c : Dev nD) (t : Fin cfg0.N) (h15 : t.val % 16 = 15) :
    (outsAt0 m c t.val t.isLt : S4x1024.Idx → EReal)
      = fun j => nearest (P m c) (G m c) (ix2 (j 0) (rowAt t.val (lt128 t.isLt) (j 1))) := by
  funext j
  obtain ⟨b, r, rfl⟩ : ∃ (b : Fin 4) (r : Fin 1024), j = ix2 b r := ⟨j 0, j 1, eq_ix2 j⟩
  rw [running m c t.val t.isLt b r, show t.val % 16 * 512 + 512 = 8192 by omega, nearestUpTo_all]

/-- WHAT A FLUSHING POINT WRITES BACK is its block of `nearest`. -/
theorem written_back (c : Dev nD) (t : Fin cfg0.N) (hf : (cfg0.win 2).flush t = true) :
    (dats m 0 c).flushed 2 t = ((cfg0.win 2).blk t).view.read (Elt Ideal) (nearest (P m c) (G m c)) := by
  obtain ⟨-, -, -, -, -, -, e0, e1⟩ := idx_facts t
  show (cfg0.win 2).cut (grid0.coords t) ((dats m 0 c).after 2 t) = _
  rw [after0_2, last_point m c t ((flush0_2 t).mp hf)]
  funext j
  show nearest (P m c) (G m c) (ix2 (j 0) (rowAt t.val (lt128 t.isLt) (j 1))) = nearest (P m c) (G m c) (((cfg0.win 2).blk t).view.emb j)
  congr 1
  funext a
  apply Fin.ext
  match a with
  | ⟨0, _⟩ => show (j 0).val = win0_2.index t (0 : Fin 2) * 4 + 1 * (j 0).val; rw [e0]; omega
  | ⟨1, _⟩ => show t.val / 16 * 1024 + (j 1).val = win0_2.index t (1 : Fin 2) * 1024 + 1 * (j 1).val; rw [e1]; omega

/-- An index of the result array is in point t's block iff each coordinate is in the block's range on its axis. -/
theorem mem_block (t : Fin cfg0.N) (i : S4x8192.Idx) :
    i ∈ ((cfg0.win 2).blk t).view.set ↔ ∀ a : Fin 2, win0_2.index t a * S4x1024.size a ≤ (i a).val ∧ (i a).val < win0_2.index t a * S4x1024.size a + S4x1024.size a := by
  show i ∈ ((View.whole main_v1).slice (win0_2.rect t)).set ↔ _
  rw [View.set_slice_whole, Rect.mem_set_unit]
  exact Iff.rfl

/-- Every entry (b, i) of the result is in the block the last point of row tile i / 1024 writes back. -/
theorem covered (i : S4x8192.Idx) : ∃ t : Fin cfg0.N, (cfg0.win 2).flush t = true ∧ i ∈ ((cfg0.win 2).blk t).view.set := by
  have hi0 : (i 0).val < 4 := (i 0).isLt
  have hi1 : (i 1).val < 8192 := (i 1).isLt
  have hN : cfg0.N = 128 := N_0
  have hlt : (i 1).val / 1024 * 16 + 15 < cfg0.N := by rw [hN]; omega
  obtain ⟨-, -, -, -, -, -, e0, e1⟩ := idx_facts ⟨(i 1).val / 1024 * 16 + 15, hlt⟩
  have e1' : win0_2.index ⟨(i 1).val / 1024 * 16 + 15, hlt⟩ (1 : Fin 2) = (i 1).val / 1024 := by
    rw [e1]; show ((i 1).val / 1024 * 16 + 15) / 16 = _; omega
  refine ⟨⟨(i 1).val / 1024 * 16 + 15, hlt⟩, (flush0_2 _).mpr (by show ((i 1).val / 1024 * 16 + 15) % 16 = 15; omega), ?_⟩
  rw [mem_block]
  intro a
  match a with
  | ⟨0, _⟩ =>
    show win0_2.index ⟨(i 1).val / 1024 * 16 + 15, hlt⟩ (0 : Fin 2) * 4 ≤ (i 0).val ∧ (i 0).val < win0_2.index ⟨(i 1).val / 1024 * 16 + 15, hlt⟩ (0 : Fin 2) * 4 + 4
    rw [e0]; omega
  | ⟨1, _⟩ =>
    show win0_2.index ⟨(i 1).val / 1024 * 16 + 15, hlt⟩ (1 : Fin 2) * 1024 ≤ (i 1).val ∧ (i 1).val < win0_2.index ⟨(i 1).val / 1024 * 16 + 15, hlt⟩ (1 : Fin 2) * 1024 + 1024
    rw [e1']; omega

/-- THE RESULT ARRAY of the launch ends at the nearest squared distances. -/
theorem final (c : Dev nD) : (dats m 0 c).arrAt 2 cfg0.N = nearest (P m c) (G m c) :=
  (dats m 0 c).arrAt_eq_of_cover 2 (nearest (P m c) (G m c)) (written_back m c) covered

/-! ## The host lines after the launch, and the run -/

/-- The mean over the 8192 rows as the host computes it: the sum along the rows from zero, divided by 8192. -/
def meanRows (d : FVec Ideal S4x8192 .f32) : FVec Ideal S4 .f32 :=
  Host.divf (F := Ideal) (Host.reduceAdd (F := Ideal) d (constant (F := Ideal) S_ .f32 0x00000000#32) reducesTo_S4x8192_S4_d1 h_S_)
    (broadcastInDim S4 ![] bcast_S_S4 (constant (F := Ideal) S_ .f32 0x46000000#32))

/-- @main's result: the host tail applied to the launch's result array. -/
theorem result_eq (c : Dev nD) :
    Pipeline.afterTail₀ cfgs (dats m) 0 (V0 m) [hostOps1] c main_v4 = meanRows (nearest (P m c) (G m c)) := by
  unfold Pipeline.afterTail₀
  show StableHlo.after hostOps1 _ (Proc.devRef .tc main_v4) = _
  after_results
  rw [(Pipeline.withArrays_arr spec0 launch0.win.arr_inj c _ _ 2).trans (final m c)]
  rfl

/-- THE RUN: every weakly fair execution ends with @main's result at the mean of the nearest squared distances and both
    clouds unchanged. -/
theorem run : θ_run defs (onTc (τ := τ) (main (F := Ideal))) ⟨m, fun _ => 0, ρ⟩ fun r => ∀ c : Dev nD,
      r.2.mem ((c.tc : Thread nD τ).loc main_v4) = meanRows (nearest (P m c) (G m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.RunValue

end
-- ==== Proof.lean ====
/-
  A one-sided Chamfer distance: for two clouds of 4 × 8192 points of 3-space, the mean over the points of the first of
  the squared distance to the NEAREST point of the second, the squared distance taken as |x|² + |y|² − 2⟨x, y⟩ and
  raised to at least zero.

  The reference forms the whole 8192 × 8192 table per batch and takes one minimum along its rows. The kernel walks the
  table in tiles of 1024 × 512: at each tile it forms the same entries from a block of the first cloud and a block of
  the second cloud's transpose (its inner product a matrix product of operands narrowed to bf16, which over the extended
  reals changes nothing), takes the minimum along the tile's lanes, and keeps a running minimum across the 16 column
  tiles of a row tile, started from +∞. Both end with the same sum over the rows divided by 8192.

  Over the extended reals the two are one function because a minimum over 8192 columns from +∞ IS the minimum of the 16
  tile minima from +∞ — the universal property of a minimum, which needs no entry to be finite (Proof/Nearest.lean).
  Entry by entry the table is the same expression of the same literal words on both sides (Proof/RefSide.lean
  `table_apply`, Proof/Tile.lean `update_apply`, joined by the block reads of Proof/Running.lean), so the kernel's result
  array after its run (Proof/Running.lean `final`) and the reference's reduced table (`reduced_eq`) are both
  `nearest p g`, and the shared last lines make both results `meanRows (nearest p g)`.

  The three frames are the generated ones (the reference's its run with the result dropped); the idealization rewrote
  nothing, so `preserves` is trivial.
-/
import proofs.«156312_j44813688767320_1_alg».proof.Defs
import proofs.«156312_j44813688767320_1_alg».proof.Proof.Gen.Kernel
import proofs.«156312_j44813688767320_1_alg».proof.Proof.Gen.Kernel.Frame
import proofs.«156312_j44813688767320_1_alg».proof.Proof.Gen.KernelIdeal
import proofs.«156312_j44813688767320_1_alg».proof.Proof.Gen.KernelIdeal.Frame
import proofs.«156312_j44813688767320_1_alg».proof.Proof.Gen.ReferenceIdeal
import proofs.«156312_j44813688767320_1_alg».proof.Proof.Gen.ReferenceIdeal.Run
import proofs.«156312_j44813688767320_1_alg».proof.Proof.Gen.ReferenceIdeal.Read
import proofs.«156312_j44813688767320_1_alg».proof.Proof.Gen.Pre_finite_inputs
import proofs.«156312_j44813688767320_1_alg».proof.Proof.Nearest
import proofs.«156312_j44813688767320_1_alg».proof.Proof.RefSide
import proofs.«156312_j44813688767320_1_alg».proof.Proof.Running
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the mean over the rows of the nearest squared distances of clouds that agree: the kernel by its
    run read as values, the reference by its run read one operation at a time; the two spellings of the last lines differ
    only in which program's shape facts they cite. -/
theorem algebraic : Cert.algebraic_KernelIdeal_ReferenceIdeal := by
  intro m ρ m' ρ' _ hagree
  refine ⟨fun c => Cert.KernelIdeal.RunValue.meanRows (Cert.HalfChamfer.nearest (Cert.KernelIdeal.RunValue.P m c) (Cert.KernelIdeal.RunValue.G m c)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
